-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S2097152x4 : Shape := ⟨2, ![2097152, 4]⟩
abbrev S2097152x1 : Shape := ⟨2, ![2097152, 1]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S2097152x1 : S_.BroadcastsInDim S2097152x1 (![] : Fin 0 → Fin S2097152x1.rank)
  reducesTo_S2097152x1_S_d0_1 : S2097152x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S2x2048x4096 .f32) (main_arg1 : IVec S2097152x4 32) (main_arg2 : FVec F S2097152x1 .f32) (main_arg3 : FVec F S2097152x1 .f32) (main_arg4 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S2097152x1 .f32 := Host.absf main_arg2
  let main_cst_0 : FVec F S_ .f32 := constant S_ .f32 0x7F800000#32
  let main_v5 : FVec F S2097152x1 .f32 := broadcastInDim S2097152x1 ![] bcast_S_S2097152x1 main_cst_0
  let main_v6 : IVec S2097152x1 1 := cmpf .olt main_v4 main_v5
  let main_c_1 : IVec S_ 1 := constantI S_ 1 1#1
  let main_v7 : IVec S_ 1 := (fun x v => Host.reduce IntOp.andi x v reducesTo_S2097152x1_S_d0_1 h_S_) main_v6 main_c_1
  let main_v8 : IVec S_ 1 := andi main_v3 main_v7
  let main_v9 : FVec F S2097152x1 .f32 := Host.absf main_arg3
  let main_cst_2 : FVec F S_ .f32 := constant S_ .f32 0x7F800000#32
  let main_v10 : FVec F S2097152x1 .f32 := broadcastInDim S2097152x1 ![] bcast_S_S2097152x1 main_cst_2
  let main_v11 : IVec S2097152x1 1 := cmpf .olt main_v9 main_v10
  let main_c_3 : IVec S_ 1 := constantI S_ 1 1#1
  let main_v12 : IVec S_ 1 := (fun x v => Host.reduce IntOp.andi x v reducesTo_S2097152x1_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S2x2048x4096 : Shape := ⟨3, ![2, 2048, 4096]⟩
abbrev S2097152x4 : Shape := ⟨2, ![2097152, 4]⟩
abbrev S2097152x1 : Shape := ⟨2, ![2097152, 1]⟩
abbrev S4096 : Shape := ⟨1, ![4096]⟩
abbrev S4096x512x4 : Shape := ⟨3, ![4096, 512, 4]⟩
abbrev S4096x512x1 : Shape := ⟨3, ![4096, 512, 1]⟩
abbrev S4096x4096 : Shape := ⟨2, ![4096, 4096]⟩
abbrev S1x4096 : Shape := ⟨2, ![1, 4096]⟩
abbrev S2048x512 : Shape := ⟨2, ![2048, 512]⟩
abbrev S1024x64x4 : Shape := ⟨3, ![1024, 64, 4]⟩
abbrev S1024x64x1 : Shape := ⟨3, ![1024, 64, 1]⟩
abbrev S1x1024 : Shape := ⟨2, ![1, 1024]⟩
abbrev S2048x1024 : Shape := ⟨2, ![2048, 1024]⟩
abbrev S1024x256 : Shape := ⟨2, ![1024, 256]⟩
abbrev S1024x256x1 : Shape := ⟨3, ![1024, 256, 1]⟩
abbrev S1024x256x2 : Shape := ⟨3, ![1024, 256, 2]⟩
abbrev S1024x512 : Shape := ⟨2, ![1024, 512]⟩

abbrev nBuf : Space → Nat
  | .hbm => 13
  | .vmem => 12
  | .smem => 0
  | _ => 0

abbrev bufTy : (tb : Table) → Fin (tcTables nBuf tb) → BufTy
  | .hbm, ⟨0, _⟩ => ⟨S2x2048x4096, .f32⟩
  | .hbm, ⟨1, _⟩ => ⟨S2097152x4, .i32⟩
  | .hbm, ⟨2, _⟩ => ⟨S2097152x1, .f32⟩
  | .hbm, ⟨3, _⟩ => ⟨S2097152x1, .f32⟩
  | .hbm, ⟨4, _⟩ => ⟨S4096, .f32⟩
  | .hbm, ⟨5, _⟩ => ⟨S4096x512x4, .i32⟩
  | .hbm, ⟨6, _⟩ => ⟨S4096x512x1, .f32⟩
  | .hbm, ⟨7, _⟩ => ⟨S4096x512x1, .f32⟩
  | .hbm, ⟨8, _⟩ => ⟨S4096x4096, .f32⟩
  | .hbm, ⟨9, _⟩ => ⟨S4096x4096, .bf16⟩
  | .hbm, ⟨10, _⟩ => ⟨S1x4096, .f32⟩
  | .hbm, ⟨11, _⟩ => ⟨S4096x4096, .f32⟩
  | .hbm, ⟨12, _⟩ => ⟨S2x2048x4096, .f32⟩
  | .local _ .vmem, ⟨0, _⟩ => ⟨S2048x512, .bf16⟩
  | .local _ .vmem, ⟨1, _⟩ => ⟨S2048x512, .bf16⟩
  | .local _ .vmem, ⟨2, _⟩ => ⟨S1024x64x4, .i32⟩
  | .local _ .vmem, ⟨3, _⟩ => ⟨S1024x64x4, .i32⟩
  | .local _ .vmem, ⟨4, _⟩ => ⟨S1024x64x1, .f32⟩
  | .local _ .vmem, ⟨5, _⟩ => ⟨S1024x64x1, .f32⟩
  | .local _ .vmem, ⟨6, _⟩ => ⟨S1024x64x1, .f32⟩
  | .local _ .vmem, ⟨7, _⟩ => ⟨S1024x64x1, .f32⟩
  | .local _ .vmem, ⟨8, _⟩ => ⟨S1x1024, .f32⟩
  | .local _ .vmem, ⟨9, _⟩ => ⟨S1x1024, .f32⟩
  | .local _ .vmem, ⟨10, _⟩ => ⟨S2048x1024, .f32⟩
  | .local _ .vmem, ⟨11, _⟩ => ⟨S2048x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x64x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S2097152x4_S4096x512x4 : S2097152x4.ShapeCasts S4096x512x4
  shapeCasts_S2097152x1_S4096x512x1 : S2097152x1.ShapeCasts S4096x512x1
  shapeCasts_S2x2048x4096_S4096x4096 : S2x2048x4096.ShapeCasts S4096x4096
  bitsLt_bf16_f32 : FTy.bits .bf16 < FTy.bits .f32
  shapeCasts_S4096_S1x4096 : S4096.ShapeCasts S1x4096
  shapeCasts_S4096x4096_S2x2048x4096 : S4096x4096.ShapeCasts S2x2048x4096
  inb_S2048x1024_S2048x1024_0_0 : ∀ a, (![0, 0] : Fin 2 → Nat) a + S2048x1024.size a ≤ S2048x1024.size a
  h_S2048x1024 : 0 < S2048x1024.numel
  inb_S1024x64x4_S1024x64x4_0_0_0 : ∀ a, (![0, 0, 0] : Fin 3 → Nat) a + S1024x64x4.size a ≤ S1024x64x4.size a
  h_S1024x64x4 : 0 < S1024x64x4.numel
  shapeCasts_S1024x64x4_S1024x64x4 : S1024x64x4.ShapeCasts S1024x64x4
  inb_S1024x64x1_S1024x64x1_0_0_0 : ∀ a, (![0, 0, 0] : Fin 3 → Nat) a + S1024x64x1.size a ≤ S1024x64x1.size a
  h_S1024x64x1 : 0 < S1024x64x1.numel
  shapeCasts_S1024x64x1_S1024x64x1 : S1024x64x1.ShapeCasts S1024x64x1
  broadcasts_S1024x64x1_S1024x64x4 : S1024x64x1.Broadcasts S1024x64x4
  shapeCasts_S1024x64x4_S1024x256 : S1024x64x4.ShapeCasts S1024x256
  shapeCasts_S1024x256_S1024x256x1 : S1024x256.ShapeCasts S1024x256x1
  concatenates_S1024x256x1_S1024x256x1_S1024x256x2_d2 : Shape.Concatenates [S1024x256x1, S1024x256x1] S1024x256x2 2
  shapeCasts_S1024x256x2_S1024x512 : S1024x256x2.ShapeCasts S1024x512
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x4096.size a
  hwx0_0 : ∀ i : grid0.Coords, EltTy.bits .bf16 = 32 ∨ (Rect.block (s := S4096x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64x4.size a ≤ S4096x512x4.size a
  hwx0_1 : ∀ i : grid0.Coords, EltTy.bits .i32 = 32 ∨ (Rect.block (s := S4096x512x4) S1024x64x4.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64x1.size a ≤ S4096x512x1.size a
  hwx0_2 : ∀ i : grid0.Coords, EltTy.bits .f32 = 32 ∨ (Rect.block (s := S4096x512x1) S1024x64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64x1.size a ≤ S4096x512x1.size a
  hwx0_3 : ∀ i : grid0.Coords, EltTy.bits .f32 = 32 ∨ (Rect.block (s := S4096x512x1) S1024x64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S4096x4096.size a
  hwx0_5 : ∀ i : grid0.Coords, EltTy.bits .f32 = 32 ∨ (Rect.block (s := S4096x4096) S2048x1024.size (cc0_transform_5 i) (hinb0_5 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_call0_v4) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1024x64x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1024x64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S1024x64x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v5) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v6) S2048x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S2097152x4 : Shape := ⟨2, ![2097152, 4]⟩
abbrev S2097152x1 : Shape := ⟨2, ![2097152, 1]⟩
abbrev S4096 : Shape := ⟨1, ![4096]⟩
abbrev S_ : Shape := ⟨0, ![]⟩
abbrev S2097152x4x1 : Shape := ⟨3, ![2097152, 4, 1]⟩
abbrev S2097152x4x2 : Shape := ⟨3, ![2097152, 4, 2]⟩
abbrev S2097152x8 : Shape := ⟨2, ![2097152, 8]⟩
abbrev S4096x4096 : Shape := ⟨2, ![4096, 4096]⟩
abbrev S1x1x4096 : Shape := ⟨3, ![1, 1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2097152x4, .i32⟩
  | .hbm, ⟨2, _⟩ => ⟨S2097152x1, .f32⟩
  | .hbm, ⟨3, _⟩ => ⟨S2097152x1, .f32⟩
  | .hbm, ⟨4, _⟩ => ⟨S4096, .f32⟩
  | .hbm, ⟨5, _⟩ => ⟨S_, .i32⟩
  | .hbm, ⟨6, _⟩ => ⟨S2097152x4, .i32⟩
  | .hbm, ⟨7, _⟩ => ⟨S2097152x4, .i32⟩
  | .hbm, ⟨8, _⟩ => ⟨S2097152x4, .f32⟩
  | .hbm, ⟨9, _⟩ => ⟨S_, .i32⟩
  | .hbm, ⟨10, _⟩ => ⟨S2097152x4, .i32⟩
  | .hbm, ⟨11, _⟩ => ⟨S2097152x4, .i32⟩
  | .hbm, ⟨12, _⟩ => ⟨S_, .i32⟩
  | .hbm, ⟨13, _⟩ => ⟨S2097152x4, .i32⟩
  | .hbm, ⟨14, _⟩ => ⟨S2097152x4, .i32⟩
  | .hbm, ⟨15, _⟩ => ⟨S2097152x4, .f32⟩
  | .hbm, ⟨16, _⟩ => ⟨S2097152x4x1, .f32⟩
  | .hbm, ⟨17, _⟩ => ⟨S2097152x4x1, .f32⟩
  | .hbm, ⟨18, _⟩ => ⟨S2097152x4x2, .f32⟩
  | .hbm, ⟨19, _⟩ => ⟨S2097152x8, .f32⟩
  | .hbm, ⟨20, _⟩ => ⟨S2097152x8, .f32⟩
  | .hbm, ⟨21, _⟩ => ⟨S2097152x8, .f32⟩
  | .hbm, ⟨22, _⟩ => ⟨S2097152x8, .f32⟩
  | .hbm, ⟨23, _⟩ => ⟨S2097152x8, .f32⟩
  | .hbm, ⟨24, _⟩ => ⟨S4096x4096, .f32⟩
  | .hbm, ⟨25, _⟩ => ⟨S2x2048x4096, .f32⟩
  | .hbm, ⟨26, _⟩ => ⟨S1x1x4096, .f32⟩
  | .hbm, ⟨27, _⟩ => ⟨S2x2048x4096, .f32⟩
  | .hbm, ⟨28, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S_S2097152x4 : S_.BroadcastsInDim S2097152x4 (![] : Fin 0 → Fin S2097152x4.rank)
  bcast_S2097152x4_S2097152x4x1_0_1 : S2097152x4.BroadcastsInDim S2097152x4x1 (![0, 1] : Fin 2 → Fin S2097152x4x1.rank)
  concatenates_S2097152x4x1_S2097152x4x1_S2097152x4x2_d2 : Shape.Concatenates [S2097152x4x1, S2097152x4x1] S2097152x4x2 2
  shapeCasts_S2097152x4x2_S2097152x8 : S2097152x4x2.ShapeCasts S2097152x8
  bcast_S2097152x1_S2097152x8_0_1 : S2097152x1.BroadcastsInDim S2097152x8 (![0, 1] : Fin 2 → Fin S2097152x8.rank)
  shapeCasts_S2097152x8_S4096x4096 : S2097152x8.ShapeCasts S4096x4096
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  dot_S2x2048x4096_S4096x4096_S2x2048x4096_2_1_01_0_n_n_wf : DotDims.WF S2x2048x4096 S4096x4096 S2x2048x4096 [2] [1] [0, 1] [0] [] []

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.Pieces.lean ====
/-
  What one visit of the body leaves in the output tile, case by case, as plain terms of the tiles it loaded.
  The output tile (2048 rows by 1024 columns) is an accumulator over the eight K-steps of a column block:
  the first K-step clears it and adds the first partial product, a middle K-step adds its partial product to
  what the step before left, and the last K-step does the same and then adds the bias row to every row.
-/
import proofs.«410811_j30906584662420_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- One K-step on an accumulator tile: the tile plus the product of the activation tile with the
    dequantized weight tile. -/
abbrev step (acc : Vec F S2048x1024 .f32) (x0 : Vec F S2048x512 .bf16) (x1 : Vec F S1024x64x4 .i32)
    (x2 x3 : Vec F S1024x64x1 .f32) : Vec F S2048x1024 .f32 :=
  k0_pay1 (k0_pay4 acc) (k0_pay5 x1 x2 x3 x0)

/-- A middle K-step leaves the step applied to what the step before left. -/
theorem out_B (c : Dev nD) (i : grid0.Coords) (a3 : Memref sig .tc .vmem S2048x512 .bf16) (h3 : a3.IsWhole) (a4 : Memref sig .tc .vmem S1024x64x4 .i32) (h4 : a4.IsWhole) (a5 : Memref sig .tc .vmem S1024x64x1 .f32) (h5 : a5.IsWhole) (a6 : Memref sig .tc .vmem S1024x64x1 .f32) (h6 : a6.IsWhole) (a7 : Memref sig .tc .vmem S1x1024 .f32) (h7 : a7.IsWhole) (a8 : Memref sig .tc .vmem S2048x1024 .f32) (h8 : a8.IsWhole) (hc0 : ¬cond0_0 i) (hc1 : ¬cond0_1 i)
    (x0 : Vec F S2048x512 .bf16) (x1 : Vec F S1024x64x4 .i32) (x2 : Vec F S1024x64x1 .f32) (x3 : Vec F S1024x64x1 .f32) (x4 : Vec F S1x1024 .f32) (xo5 : Vec F S2048x1024 .f32) :
    out0_B_5 c i a3 h3 a4 h4 a5 h5 a6 h6 a7 h7 a8 h8 hc0 hc1 x0 x1 x2 x3 x4 xo5 = step xo5 x0 x1 x2 x3 := by
  unfold out0_B_5
  rw [View.read_writes_eq_canon _ _ _ (cover0_B_5 c i a3 h3 a4 h4 a5 h5 a6 h6 a7 h7 a8 h8 hc0 hc1 x0 x1 x2 x3 x4 xo5)]
  unfold kernelRun0_B
  dsimp only
  sl_unfold_words
  rw [View.canon_unit_zero zeros2]
  simp only [View.readAt_eq_ld, h3.read_unread, h4.read_unread, h5.read_unread, h6.read_unread, h8.read_unread,
    View.ld_unit_zero (S := S2048x1024) zeros2, View.ld_unit_zero (S := S2048x512) zeros2,
    View.ld_unit_zero (S := S1024x64x4) zeros3, View.ld_unit_zero (S := S1024x64x1) zeros3]

/-- The first K-step clears the tile and leaves the step applied to the cleared tile. -/
theorem out_A (c : Dev nD) (i : grid0.Coords) (a3 : Memref sig .tc .vmem S2048x512 .bf16) (h3 : a3.IsWhole) (a4 : Memref sig .tc .vmem S1024x64x4 .i32) (h4 : a4.IsWhole) (a5 : Memref sig .tc .vmem S1024x64x1 .f32) (h5 : a5.IsWhole) (a6 : Memref sig .tc .vmem S1024x64x1 .f32) (h6 : a6.IsWhole) (a7 : Memref sig .tc .vmem S1x1024 .f32) (h7 : a7.IsWhole) (a8 : Memref sig .tc .vmem S2048x1024 .f32) (h8 : a8.IsWhole) (hc0 : cond0_0 i) (hc1 : ¬cond0_1 i)
    (x0 : Vec F S2048x512 .bf16) (x1 : Vec F S1024x64x4 .i32) (x2 : Vec F S1024x64x1 .f32) (x3 : Vec F S1024x64x1 .f32) (x4 : Vec F S1x1024 .f32) :
    out0_A_5 c i a3 h3 a4 h4 a5 h5 a6 h6 a7 h7 a8 h8 hc0 hc1 x0 x1 x2 x3 x4 = step (k0_pay3 (F := F)) x0 x1 x2 x3 := by
  unfold out0_A_5
  rw [View.read_writes_eq_canon _ _ _ (cover0_A_5 c i a3 h3 a4 h4 a5 h5 a6 h6 a7 h7 a8 h8 hc0 hc1 x0 x1 x2 x3 x4)]
  unfold kernelRun0_A
  dsimp only
  sl_unfold_words
  rw [View.canon_cons_unit_zero (S := S2048x1024) zeros2, View.readCov_unit_zero (S := S2048x1024) _ zeros2]
  simp only [View.readAt_eq_ld, h3.read_unread, h4.read_unread, h5.read_unread, h6.read_unread, h7.read_unread, h8.read_unread,
    View.ld_unit_zero (S := S2048x1024) zeros2, View.ld_unit_zero (S := S2048x512) zeros2, View.ld_unit_zero (S := S1x1024) zeros2,
    View.ld_unit_zero (S := S1024x64x4) zeros3, View.ld_unit_zero (S := S1024x64x1) zeros3]

/-- The last K-step leaves the step applied to what the step before left, with the bias row added to every row. -/
theorem out_C (c : Dev nD) (i : grid0.Coords) (a3 : Memref sig .tc .vmem S2048x512 .bf16) (h3 : a3.IsWhole) (a4 : Memref sig .tc .vmem S1024x64x4 .i32) (h4 : a4.IsWhole) (a5 : Memref sig .tc .vmem S1024x64x1 .f32) (h5 : a5.IsWhole) (a6 : Memref sig .tc .vmem S1024x64x1 .f32) (h6 : a6.IsWhole) (a7 : Memref sig .tc .vmem S1x1024 .f32) (h7 : a7.IsWhole) (a8 : Memref sig .tc .vmem S2048x1024 .f32) (h8 : a8.IsWhole) (hc0 : ¬cond0_0 i) (hc1 : cond0_1 i)
    (x0 : Vec F S2048x512 .bf16) (x1 : Vec F S1024x64x4 .i32) (x2 : Vec F S1024x64x1 .f32) (x3 : Vec F S1024x64x1 .f32) (x4 : Vec F S1x1024 .f32) (xo5 : Vec F S2048x1024 .f32) :
    out0_C_5 c i a3 h3 a4 h4 a5 h5 a6 h6 a7 h7 a8 h8 hc0 hc1 x0 x1 x2 x3 x4 xo5 = k0_pay2 (step xo5 x0 x1 x2 x3) x4 := by
  unfold out0_C_5
  rw [View.read_writes_eq_canon _ _ _ (cover0_C_5 c i a3 h3 a4 h4 a5 h5 a6 h6 a7 h7 a8 h8 hc0 hc1 x0 x1 x2 x3 x4 xo5)]
  unfold kernelRun0_C
  dsimp only
  sl_unfold_words
  rw [View.canon_cons_unit_zero (S := S2048x1024) zeros2, View.readCov_unit_zero (S := S2048x1024) _ zeros2]
  simp only [View.readAt_eq_ld, h3.read_unread, h4.read_unread, h5.read_unread, h6.read_unread, h7.read_unread, h8.read_unread,
    View.ld_unit_zero (S := S2048x1024) zeros2, View.ld_unit_zero (S := S2048x512) zeros2, View.ld_unit_zero (S := S1x1024) zeros2,
    View.ld_unit_zero (S := S1024x64x4) zeros3, View.ld_unit_zero (S := S1024x64x1) zeros3]

end Cert.KernelIdeal.Acc

end
-- ==== Proof.LibSumBlocks.lean ====
import Mathlib.Data.Fintype.BigOperators
import Mathlib.Logic.Equiv.Fin.Basic

/-! # A sum over consecutive blocks

A sum over `A * B` consecutive indices, cut into `A` blocks of `B`: entry `r` of block `t` is index `B * t + r`. -/

namespace Cert.LibSumBlocks

open scoped BigOperators

/-- Entry `r` of block `t`, of `A` blocks of `B` entries each, is below `A * B`. -/
theorem block_lt {A B N : ℕ} (h : A * B = N) (t : Fin A) (r : Fin B) : B * t.val + r.val < N := by
  have h1 : B * (t.val + 1) ≤ B * A := Nat.mul_le_mul_left _ t.isLt
  have h2 : B * (t.val + 1) = B * t.val + B := Nat.mul_succ _ _
  have h3 := r.isLt
  rw [← h, Nat.mul_comm A B]
  omega

/-- THE SUM BY BLOCKS: over `N = A * B` indices, the sum over the `A` blocks of the sum over the `B` entries inside
    each block, entry `r` of block `t` being index `B * t + r`, is the sum over all `N` indices, in any additive
    commutative monoid. -/
theorem sum_blocks {M : Type*} [AddCommMonoid M] {A B N : ℕ} (h : A * B = N) (f : Fin N → M) :
    ∑ t : Fin A, ∑ r : Fin B, f ⟨B * t.val + r.val, block_lt h t r⟩ = ∑ n : Fin N, f n := by
  subst h
  rw [← Fintype.sum_prod_type' (fun (t : Fin A) (r : Fin B) => f ⟨B * t.val + r.val, block_lt rfl t r⟩)]
  refine Fintype.sum_equiv finProdFinEquiv _ _ fun x => ?_
  refine congrArg f (Fin.ext ?_)
  show B * x.1.val + x.2.val = x.2.val + B * x.1.val
  exact Nat.add_comm _ _

end Cert.LibSumBlocks
-- ==== Proof.Spec.lean ====
/-
  The arithmetic both programs compute, stated once over the extended reals with no program in sight.

  A weight matrix of 4096 rows (output features) by 4096 columns (input features) is stored as 4-bit codes,
  two to a packed word, eight codes (four words) to a quantization group; group `g = 512 * o + n / 8` holds
  columns `8 * (n / 8) .. 8 * (n / 8) + 7` of row `o`, its word `(n % 8) / 2` holds columns with that quotient, the
  low field the even column and the high field the odd one. A weight is `code * scale g + offset g`.
  The result at row `r` of the flattened activations (`r = 2048 * b + s`) and output feature `o` is
  `(sum over n of x r n * weight o n) + bias o`.

  The sum over the 4096 columns is also the left-to-right running sum, from zero, of its eight consecutive
  blocks of 512 columns: addition of extended reals is associative and commutative, so no finiteness is used.
-/
import Idealize.ShloMosaic.PureOps.Ideal
import Idealize.ShloMosaic.Lib.ValueIdx
import proofs.«410811_j30906584662420_3_alg».proof.Proof.LibSumBlocks

noncomputable section

namespace Cert.Spec

open Idealize.ShloMosaic Idealize.ShloMosaic.ValueIdx

/-- Field `h` of a packed word: the low four bits (`h = 0`) or the next four (otherwise), as a word. -/
def field (h : ℕ) (w : BitVec 32) : BitVec 32 :=
  if h = 0 then IntOp.andi w 15#32 else IntOp.andi (IntOp.shrsi .vector w 4#32) 15#32

/-- A dequantized weight: the field read as a signed integer, times the group's scale, plus its offset. -/
def deq (h : ℕ) (w : BitVec 32) (sc wb : EReal) : EReal :=
  FloatOps.sitofp (F := Ideal) .f32 (field h w) * sc + wb

abbrev Acts := (⟨3, ![2, 2048, 4096]⟩ : Shape).Idx → EReal
abbrev Codes := (⟨2, ![2097152, 4]⟩ : Shape).Idx → BitVec 32
abbrev Groups := (⟨2, ![2097152, 1]⟩ : Shape).Idx → EReal
abbrev Bias := (⟨1, ![4096]⟩ : Shape).Idx → EReal

/-- The quantization group of column `n` of row `o`. -/
def grp (o n : Fin 4096) : Fin 2097152 := ⟨o.val * 512 + n.val / 8, by omega⟩

/-- Weight `(o, n)`. -/
def wAt (pk : Codes) (sc wb : Groups) (o n : Fin 4096) : EReal :=
  deq (n.val % 2) (pk (ix2 (grp o n) ⟨n.val % 8 / 2, by omega⟩)) (sc (ix2 (grp o n) ⟨0, by omega⟩)) (wb (ix2 (grp o n) ⟨0, by omega⟩))

/-- Activation `(r, n)` of the activations flattened to 4096 rows. -/
def xAt (x : Acts) (r n : Fin 4096) : EReal := x (ix3 ⟨r.val / 2048, by omega⟩ ⟨r.val % 2048, by omega⟩ n)

/-- One product of the contraction. -/
def term (x : Acts) (pk : Codes) (sc wb : Groups) (r o n : Fin 4096) : EReal := xAt x r n * wAt pk sc wb o n

/-- The result at flattened row `r` and output feature `o`. -/
def out (x : Acts) (pk : Codes) (sc wb : Groups) (bias : Bias) (r o : Fin 4096) : EReal :=
  ∑ n : Fin 4096, term x pk sc wb r o n + bias (ix1 o)

/-- The result as an array of the activations' shape. -/
def result (x : Acts) (pk : Codes) (sc wb : Groups) (bias : Bias) : Acts := fun j =>
  out x pk sc wb bias
    ⟨(j 0).val * 2048 + (j 1).val, by have h0 : (j 0).val < 2 := (j 0).isLt; have h1 : (j 1).val < 2048 := (j 1).isLt; omega⟩
    ⟨(j 2).val, (j 2).isLt⟩

/-- The sum of block `k` of 512 consecutive columns. -/
def blockSum (x : Acts) (pk : Codes) (sc wb : Groups) (r o : Fin 4096) (k : Fin 8) : EReal :=
  ∑ kk : Fin 512, term x pk sc wb r o ⟨512 * k.val + kk.val, Cert.LibSumBlocks.block_lt (A := 8) (B := 512) rfl k kk⟩

/-- The running sum of the first `K + 1` of eight summands, accumulated left to right from zero. -/
def runSum (D : Fin 8 → EReal) : (K : ℕ) → K < 8 → EReal
  | 0, h => 0 + D ⟨0, h⟩
  | K + 1, h => runSum D K (Nat.lt_of_succ_lt h) + D ⟨K + 1, h⟩

theorem runSum_zero (D : Fin 8 → EReal) (h : 0 < 8) : runSum D 0 h = 0 + D ⟨0, h⟩ := rfl
theorem runSum_succ (D : Fin 8 → EReal) (K : ℕ) (h : K + 1 < 8) :
    runSum D (K + 1) h = runSum D K (Nat.lt_of_succ_lt h) + D ⟨K + 1, h⟩ := rfl

/-- All eight: the whole sum. -/
theorem runSum_last (D : Fin 8 → EReal) : runSum D 7 (by decide) = ∑ k : Fin 8, D k := by
  simp only [runSum, zero_add, Fin.sum_univ_eight]
  rfl

/-- The eight block sums accumulated from zero, plus the bias, is the result. -/
theorem runSum_blockSum (x : Acts) (pk : Codes) (sc wb : Groups) (bias : Bias) (r o : Fin 4096) :
    runSum (blockSum x pk sc wb r o) 7 (by decide) + bias (ix1 o) = out x pk sc wb bias r o := by
  rw [runSum_last]
  unfold out blockSum
  rw [Cert.LibSumBlocks.sum_blocks (A := 8) (B := 512) (N := 4096) rfl (term x pk sc wb r o)]

end Cert.Spec

end
-- ==== Proof.HostIn.lean ====
/-
  The arrays the kernel's windows are cut from, as the host lines before the call leave them, read at an index:
  the packed words regrouped as (output feature, group, word), the scales and offsets as (output feature, group, 1),
  the activations flattened to 4096 rows (their cast to a narrower float format changes nothing at the ideal
  values), the bias as one row.
-/
import proofs.«410811_j30906584662420_3_alg».proof.Proof.Gen.KernelIdeal.Frame
import proofs.«410811_j30906584662420_3_alg».proof.Proof.Spec
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.HostIn

open Cert.KernelIdeal Cert.KernelIdeal.Gen

variable (m : (ℓ : Loc nD τ sig) → Buf (Elt Ideal) ℓ)

/-- The five arguments as launched. -/
abbrev argX (c : Dev nD) : Cert.Spec.Acts := m ((c : Thread nD τ).loc main_arg0)
abbrev argP (c : Dev nD) : Cert.Spec.Codes := m ((c : Thread nD τ).loc main_arg1)
abbrev argS (c : Dev nD) : Cert.Spec.Groups := m ((c : Thread nD τ).loc main_arg2)
abbrev argO (c : Dev nD) : Cert.Spec.Groups := m ((c : Thread nD τ).loc main_arg3)
abbrev argB (c : Dev nD) : Cert.Spec.Bias := m ((c : Thread nD τ).loc main_arg4)

theorem V_words (c : Dev nD) : (V m c main_call0_v0 : S4096x512x4.Idx → BitVec 32)
    = shapeCast S4096x512x4 (argP m c) Facts₀.shapeCasts_S2097152x4_S4096x512x4 := by
  show StableHlo.after hostOps0 (fun b => m (c, b)) (Proc.devRef .tc main_call0_v0) = _
  after_results
  rfl

theorem V_scales (c : Dev nD) : (V m c main_call0_v1 : S4096x512x1.Idx → EReal)
    = shapeCast S4096x512x1 (argS m c) Facts₀.shapeCasts_S2097152x1_S4096x512x1 := by
  show StableHlo.after hostOps0 (fun b => m (c, b)) (Proc.devRef .tc main_call0_v1) = _
  after_results
  rfl

theorem V_offsets (c : Dev nD) : (V m c main_call0_v2 : S4096x512x1.Idx → EReal)
    = shapeCast S4096x512x1 (argO m c) Facts₀.shapeCasts_S2097152x1_S4096x512x1 := by
  show StableHlo.after hostOps0 (fun b => m (c, b)) (Proc.devRef .tc main_call0_v2) = _
  after_results
  rfl

theorem V_acts (c : Dev nD) : (V m c main_call0_v4 : S4096x4096.Idx → EReal)
    = truncf .bf16 (shapeCast S4096x4096 (argX m c) Facts₀.shapeCasts_S2x2048x4096_S4096x4096 : FVec Ideal S4096x4096 .f32) Facts₀.bitsLt_bf16_f32 := by
  show StableHlo.after hostOps0 (fun b => m (c, b)) (Proc.devRef .tc main_call0_v4) = _
  after_results
  rfl

theorem V_bias (c : Dev nD) : (V m c main_call0_v5 : S1x4096.Idx → EReal)
    = shapeCast S1x4096 (argB m c) Facts₀.shapeCasts_S4096_S1x4096 := by
  show StableHlo.after hostOps0 (fun b => m (c, b)) (Proc.devRef .tc main_call0_v5) = _
  after_results
  rfl

/-- Word `jj` of group `cg` of output feature `o` is word `jj` of group `512 * o + cg`. -/
theorem words_apply (c : Dev nD) (o : Fin 4096) (cg : Fin 512) (jj : Fin 4) :
    (V m c main_call0_v0 : S4096x512x4.Idx → BitVec 32) (ix3 o cg jj) = argP m c (ix2 ⟨o.val * 512 + cg.val, by omega⟩ jj) := by
  rw [V_words, shapeCast_apply _ Facts₀.shapeCasts_S2097152x4_S4096x512x4 _ (ix2 ⟨o.val * 512 + cg.val, by omega⟩ jj)
    (by rewrite [Shape.rowMajor_val_two, Shape.rowMajor_val_three]; rfl)]

theorem scales_apply (c : Dev nD) (o : Fin 4096) (cg : Fin 512) :
    (V m c main_call0_v1 : S4096x512x1.Idx → EReal) (ix3 o cg ⟨0, by omega⟩) = argS m c (ix2 ⟨o.val * 512 + cg.val, by omega⟩ ⟨0, by omega⟩) := by
  rw [V_scales, shapeCast_apply _ Facts₀.shapeCasts_S2097152x1_S4096x512x1 _ (ix2 ⟨o.val * 512 + cg.val, by omega⟩ ⟨0, by omega⟩)
    (by rewrite [Shape.rowMajor_val_two, Shape.rowMajor_val_three]; rfl)]

theorem offsets_apply (c : Dev nD) (o : Fin 4096) (cg : Fin 512) :
    (V m c main_call0_v2 : S4096x512x1.Idx → EReal) (ix3 o cg ⟨0, by omega⟩) = argO m c (ix2 ⟨o.val * 512 + cg.val, by omega⟩ ⟨0, by omega⟩) := by
  rw [V_offsets, shapeCast_apply _ Facts₀.shapeCasts_S2097152x1_S4096x512x1 _ (ix2 ⟨o.val * 512 + cg.val, by omega⟩ ⟨0, by omega⟩)
    (by rewrite [Shape.rowMajor_val_two, Shape.rowMajor_val_three]; rfl)]

/-- Entry `(r, n)` of the flattened activations. -/
theorem acts_apply (c : Dev nD) (r n : Fin 4096) :
    (V m c main_call0_v4 : S4096x4096.Idx → EReal) (ix2 r n) = Cert.Spec.xAt (argX m c) r n := by
  rw [V_acts, truncf_apply, shapeCast_apply _ Facts₀.shapeCasts_S2x2048x4096_S4096x4096 _ (ix3 ⟨r.val / 2048, by omega⟩ ⟨r.val % 2048, by omega⟩ n)
    (by rewrite [Shape.rowMajor_val_three, Shape.rowMajor_val_two]; show (r.val / 2048 * 2048 + r.val % 2048) * 4096 + n.val = r.val * 4096 + n.val; omega)]
  rfl

theorem bias_apply (c : Dev nD) (o : Fin 4096) :
    (V m c main_call0_v5 : S1x4096.Idx → EReal) (ix2 ⟨0, by omega⟩ o) = argB m c (ix1 o) := by
  rw [V_bias, shapeCast_apply _ Facts₀.shapeCasts_S4096_S1x4096 _ (ix1 o)
    (by rewrite [Shape.rowMajor_val_one, Shape.rowMajor_val_two]; show o.val = 0 * 4096 + o.val; omega)]

end Cert.KernelIdeal.HostIn

end
-- ==== Proof.Payload.lean ====
/-
  One K-step read entry by entry, at the ideal values.

  The weight tile (1024 output features by 512 columns) is rebuilt in the body from 1024 x 64 groups of four
  packed words: the low and the high fields are dequantized group-wise, each flattened to 256 columns, the two
  interleaved (a join along a new last axis of extent two, then flattened), so column `kk` of the tile is field
  `kk % 2` of word `(kk % 8) / 2` of group `kk / 8`. The step adds to the accumulator the product of the
  activation tile (2048 x 512) with that tile, contracting the 512 columns.
-/
import proofs.«410811_j30906584662420_3_alg».proof.Proof.Gen.KernelIdeal.Skeleton
import proofs.«410811_j30906584662420_3_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Tile

open Cert.KernelIdeal Cert.KernelIdeal.Gen

/-- A per-group value spread over the group's four words. -/
theorem spread_apply (x : Vec Ideal S1024x64x1 .f32) (q : Fin 1024) (cg : Fin 64) (jj : Fin 4) :
    broadcastTo S1024x64x4 x Facts₀.broadcasts_S1024x64x1_S1024x64x4 (ix3 q cg jj) = x (ix3 q cg ⟨0, by omega⟩) :=
  broadcastTo_apply x Facts₀.broadcasts_S1024x64x1_S1024x64x4 (ix3 q cg jj) (ix3 q cg ⟨0, by omega⟩) (fun a => match a with
    | ⟨0, _⟩ => by show q.val = if (1024 : Nat) = 1 then 0 else q.val; rw [if_neg (by decide)]
    | ⟨1, _⟩ => by show cg.val = if (64 : Nat) = 1 then 0 else cg.val; rw [if_neg (by decide)]
    | ⟨2, _⟩ => by show 0 = if (1 : Nat) = 1 then 0 else jj.val; rw [if_pos rfl])

/-- The dequantized low fields of a tile's words. -/
def lowT (x1 : Vec Ideal S1024x64x4 .i32) (x2 x3 : Vec Ideal S1024x64x1 .f32) : FVec Ideal S1024x64x4 .f32 :=
  addf (mulf (sitofp .f32 (andi (shapeCast S1024x64x4 x1 Facts₀.shapeCasts_S1024x64x4_S1024x64x4) (broadcast S1024x64x4 15#32)))
      (broadcastTo S1024x64x4 (shapeCast S1024x64x1 x2 Facts₀.shapeCasts_S1024x64x1_S1024x64x1) Facts₀.broadcasts_S1024x64x1_S1024x64x4))
    (broadcastTo S1024x64x4 (shapeCast S1024x64x1 x3 Facts₀.shapeCasts_S1024x64x1_S1024x64x1) Facts₀.broadcasts_S1024x64x1_S1024x64x4)

/-- The dequantized high fields. -/
def highT (x1 : Vec Ideal S1024x64x4 .i32) (x2 x3 : Vec Ideal S1024x64x1 .f32) : FVec Ideal S1024x64x4 .f32 :=
  addf (mulf (sitofp .f32 (andi (shrsi (shapeCast S1024x64x4 x1 Facts₀.shapeCasts_S1024x64x4_S1024x64x4) (broadcast S1024x64x4 4#32)) (broadcast S1024x64x4 15#32)))
      (broadcastTo S1024x64x4 (shapeCast S1024x64x1 x2 Facts₀.shapeCasts_S1024x64x1_S1024x64x1) Facts₀.broadcasts_S1024x64x1_S1024x64x4))
    (broadcastTo S1024x64x4 (shapeCast S1024x64x1 x3 Facts₀.shapeCasts_S1024x64x1_S1024x64x1) Facts₀.broadcasts_S1024x64x1_S1024x64x4)

theorem lowT_apply (x1 : Vec Ideal S1024x64x4 .i32) (x2 x3 : Vec Ideal S1024x64x1 .f32) (q : Fin 1024) (cg : Fin 64) (jj : Fin 4) :
    lowT x1 x2 x3 (ix3 q cg jj) = Cert.Spec.deq 0 (x1 (ix3 q cg jj)) (x2 (ix3 q cg ⟨0, by omega⟩)) (x3 (ix3 q cg ⟨0, by omega⟩)) := by
  unfold lowT
  rw [addf_apply, mulf_apply, spread_apply, spread_apply, shapeCast_self, shapeCast_self, shapeCast_self]
  rfl

theorem highT_apply (x1 : Vec Ideal S1024x64x4 .i32) (x2 x3 : Vec Ideal S1024x64x1 .f32) (q : Fin 1024) (cg : Fin 64) (jj : Fin 4) :
    highT x1 x2 x3 (ix3 q cg jj) = Cert.Spec.deq 1 (x1 (ix3 q cg jj)) (x2 (ix3 q cg ⟨0, by omega⟩)) (x3 (ix3 q cg ⟨0, by omega⟩)) := by
  unfold highT
  rw [addf_apply, mulf_apply, spread_apply, spread_apply, shapeCast_self, shapeCast_self, shapeCast_self]
  rfl

/-- A group-wise array flattened to 256 columns and given a unit last axis, read back. -/
theorem flat_apply (v : FVec Ideal S1024x64x4 .f32) (q : Fin 1024) (kk : Fin 512) :
    shapeCast S1024x256x1 (shapeCast S1024x256 v Facts₀.shapeCasts_S1024x64x4_S1024x256) Facts₀.shapeCasts_S1024x256_S1024x256x1
        (ix3 q ⟨kk.val / 2, by omega⟩ ⟨0, by omega⟩)
      = v (ix3 q ⟨kk.val / 8, by omega⟩ ⟨kk.val % 8 / 2, by omega⟩) := by
  rw [shapeCast_apply _ Facts₀.shapeCasts_S1024x256_S1024x256x1 _ (ix2 q ⟨kk.val / 2, by omega⟩)
      (by rewrite [Shape.rowMajor_val_two, Shape.rowMajor_val_three]; show q.val * 256 + kk.val / 2 = (q.val * 256 + kk.val / 2) * 1 + 0; omega),
    shapeCast_apply _ Facts₀.shapeCasts_S1024x64x4_S1024x256 _ (ix3 q ⟨kk.val / 8, by omega⟩ ⟨kk.val % 8 / 2, by omega⟩)
      (by rewrite [Shape.rowMajor_val_three, Shape.rowMajor_val_two]; show (q.val * 64 + kk.val / 8) * 4 + kk.val % 8 / 2 = q.val * 256 + kk.val / 2; omega)]

/-- The weight tile the matrix unit is fed. -/
def wtile (x1 : Vec Ideal S1024x64x4 .i32) (x2 x3 : Vec Ideal S1024x64x1 .f32) : FVec Ideal S1024x512 .bf16 :=
  truncf .bf16 (shapeCast S1024x512 (concatenate S1024x256x2 2
    [⟨S1024x256x1, shapeCast S1024x256x1 (shapeCast S1024x256 (lowT x1 x2 x3) Facts₀.shapeCasts_S1024x64x4_S1024x256) Facts₀.shapeCasts_S1024x256_S1024x256x1⟩,
     ⟨S1024x256x1, shapeCast S1024x256x1 (shapeCast S1024x256 (highT x1 x2 x3) Facts₀.shapeCasts_S1024x64x4_S1024x256) Facts₀.shapeCasts_S1024x256_S1024x256x1⟩]
    Facts₀.concatenates_S1024x256x1_S1024x256x1_S1024x256x2_d2) Facts₀.shapeCasts_S1024x256x2_S1024x512) Facts₀.bitsLt_bf16_f32

/-- Column `kk` of row `q` of the tile is the dequantized field `kk % 2` of word `(kk % 8) / 2` of group `kk / 8`. -/
theorem wtile_apply (x1 : Vec Ideal S1024x64x4 .i32) (x2 x3 : Vec Ideal S1024x64x1 .f32) (q : Fin 1024) (kk : Fin 512) :
    wtile x1 x2 x3 (ix2 q kk) = Cert.Spec.deq (kk.val % 2) (x1 (ix3 q ⟨kk.val / 8, by omega⟩ ⟨kk.val % 8 / 2, by omega⟩))
      (x2 (ix3 q ⟨kk.val / 8, by omega⟩ ⟨0, by omega⟩)) (x3 (ix3 q ⟨kk.val / 8, by omega⟩ ⟨0, by omega⟩)) := by
  unfold wtile
  rw [truncf_apply, shapeCast_apply _ Facts₀.shapeCasts_S1024x256x2_S1024x512 _ (ix3 q ⟨kk.val / 2, by omega⟩ ⟨kk.val % 2, by omega⟩)
      (by rewrite [Shape.rowMajor_val_three, Shape.rowMajor_val_two]; show (q.val * 256 + kk.val / 2) * 2 + kk.val % 2 = q.val * 512 + kk.val; omega)]
  rcases Nat.mod_two_eq_zero_or_one kk.val with h | h
  · rw [concatenate_pair_apply_left (t := S1024x256x2) (s₁ := S1024x256x1) (s₂ := S1024x256x1) (2 : Fin 3) _ _ Facts₀.concatenates_S1024x256x1_S1024x256x1_S1024x256x2_d2 _ rfl
        (show S1024x256x1.Idx from ix3 q ⟨kk.val / 2, by omega⟩ ⟨0, by omega⟩)
        (fun b => match b with
          | ⟨0, _⟩ => rfl
          | ⟨1, _⟩ => rfl
          | ⟨2, _⟩ => by show 0 = kk.val % 2; omega),
      flat_apply, lowT_apply, h]
  · rw [concatenate_pair_apply_right (t := S1024x256x2) (s₁ := S1024x256x1) (s₂ := S1024x256x1) (2 : Fin 3) _ _ Facts₀.concatenates_S1024x256x1_S1024x256x1_S1024x256x2_d2 _ rfl rfl
        (show S1024x256x1.Idx from ix3 q ⟨kk.val / 2, by omega⟩ ⟨0, by omega⟩)
        (fun b hb => match b, hb with
          | ⟨0, _⟩, _ => rfl
          | ⟨1, _⟩, _ => rfl
          | ⟨2, _⟩, hb => absurd rfl hb)
        (by show 0 + 1 = kk.val % 2; omega),
      flat_apply, highT_apply, h]

/-- The body's matrix product is the matrix unit fed the activation tile and the weight tile, from zero. -/
theorem pay5_eq (x1 : Vec Ideal S1024x64x4 .i32) (x2 x3 : Vec Ideal S1024x64x1 .f32) (x0 : Vec Ideal S2048x512 .bf16) :
    k0_pay5 x1 x2 x3 x0 = matmul dot_S2048x512_S1024x512_S2048x1024_1_1_0_0_n_n none (shapeCast S2048x512 x0 Facts₀.shapeCasts_S2048x512_S2048x512 : FVec Ideal S2048x512 .bf16) (wtile x1 x2 x3)
      (constant S2048x1024 .f32 0x00000000#32) := rfl

theorem lhs_0 (i : S2048x1024.Idx) (r : dot_S2048x512_S1024x512_S2048x1024_1_1_0_0_n_n.contr.Idx) : (dot_S2048x512_S1024x512_S2048x1024_1_1_0_0_n_n.lhsIdx i r 0).val = (i 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
theorem lhs_1 (i : S2048x1024.Idx) (r : dot_S2048x512_S1024x512_S2048x1024_1_1_0_0_n_n.contr.Idx) : (dot_S2048x512_S1024x512_S2048x1024_1_1_0_0_n_n.lhsIdx i r 1).val = (r ⟨0, by decide⟩).val :=
  dot_S2048x512_S1024x512_S2048x1024_1_1_0_0_n_n.lhsIdx_val_of_single rfl i r
theorem rhs_0 (i : S2048x1024.Idx) (r : dot_S2048x512_S1024x512_S2048x1024_1_1_0_0_n_n.contr.Idx) : (dot_S2048x512_S1024x512_S2048x1024_1_1_0_0_n_n.rhsIdx i r 0).val = (i 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
theorem rhs_1 (i : S2048x1024.Idx) (r : dot_S2048x512_S1024x512_S2048x1024_1_1_0_0_n_n.contr.Idx) : (dot_S2048x512_S1024x512_S2048x1024_1_1_0_0_n_n.rhsIdx i r 1).val = (r ⟨0, by decide⟩).val :=
  dot_S2048x512_S1024x512_S2048x1024_1_1_0_0_n_n.rhsIdx_val_of_single rfl i r

/-- The matrix product at row `p` and column `q` of the output tile: the sum over the 512 columns of the
    activation tile's row `p` times the weight tile's row `q`. -/
theorem pay5_apply (x1 : Vec Ideal S1024x64x4 .i32) (x2 x3 : Vec Ideal S1024x64x1 .f32) (x0 : Vec Ideal S2048x512 .bf16)
    (p : Fin 2048) (q : Fin 1024) :
    k0_pay5 x1 x2 x3 x0 (ix2 p q) = ∑ kk : Fin 512, x0 (ix2 p kk) * wtile x1 x2 x3 (ix2 q kk) := by
  rw [pay5_eq]
  simp only [matmul]
  rw [Ideal.matmul_constant_zero_apply, ← Equiv.sum_comp (contrEquiv1 dot_S2048x512_S1024x512_S2048x1024_1_1_0_0_n_n 512 rfl rfl).symm]
  refine Finset.sum_congr rfl fun kk _ => ?_
  have hk := contrEquiv1_symm_val dot_S2048x512_S1024x512_S2048x1024_1_1_0_0_n_n 512 rfl rfl kk
  have el : dot_S2048x512_S1024x512_S2048x1024_1_1_0_0_n_n.lhsIdx (ix2 p q) ((contrEquiv1 dot_S2048x512_S1024x512_S2048x1024_1_1_0_0_n_n 512 rfl rfl).symm kk) = ix2 p kk := funext fun a => Fin.ext (by
    match a with
    | ⟨0, _⟩ => exact lhs_0 _ _
    | ⟨1, _⟩ => exact (lhs_1 _ _).trans hk)
  have er : dot_S2048x512_S1024x512_S2048x1024_1_1_0_0_n_n.rhsIdx (ix2 p q) ((contrEquiv1 dot_S2048x512_S1024x512_S2048x1024_1_1_0_0_n_n 512 rfl rfl).symm kk) = ix2 q kk := funext fun a => Fin.ext (by
    match a with
    | ⟨0, _⟩ => exact rhs_0 _ _
    | ⟨1, _⟩ => exact (rhs_1 _ _).trans hk)
  rw [el, er, shapeCast_self]

end Cert.KernelIdeal.Tile

end
-- ==== Proof.Blocks.lean ====
/-
  The windows' blocks at a grid point, in terms of the arguments.

  The grid is 2 x 4 x 8, walked with the last axis fastest: point `t` is row block `t / 32` (2048 rows),
  column block `(t / 8) % 4` (1024 output features) and K-step `t % 8` (512 columns, i.e. 64 groups).
  So at point `t` the activation tile holds rows `2048 * (t / 32) + p` and columns `512 * (t % 8) + kk`, the
  weight-side tiles hold output features `1024 * ((t / 8) % 4) + q` and groups `64 * (t % 8) + cg`, and the
  dequantized weight tile is the weight matrix at those output features and columns.
-/
import proofs.«410811_j30906584662420_3_alg».proof.Proof.HostIn
import proofs.«410811_j30906584662420_3_alg».proof.Proof.Payload

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.HostIn

variable (m : (ℓ : Loc nD τ sig) → Buf (Elt Ideal) ℓ)

/-- Where each window's block sits at point `t`, decided once over the 64 points. -/
theorem at0 : ∀ t : Fin cfg0.N, win0_0.index t 0 = t.val / 32 ∧ win0_0.index t 1 = t.val % 8 :=
  (by decide +kernel : ∀ t : Fin grid0.N, win0_0.index t 0 = t.val / 32 ∧ win0_0.index t 1 = t.val % 8)
theorem at1 : ∀ t : Fin cfg0.N, win0_1.index t 0 = t.val / 8 % 4 ∧ win0_1.index t 1 = t.val % 8 ∧ win0_1.index t 2 = 0 :=
  (by decide +kernel : ∀ t : Fin grid0.N, win0_1.index t 0 = t.val / 8 % 4 ∧ win0_1.index t 1 = t.val % 8 ∧ win0_1.index t 2 = 0)
theorem at2 : ∀ t : Fin cfg0.N, win0_2.index t 0 = t.val / 8 % 4 ∧ win0_2.index t 1 = t.val % 8 ∧ win0_2.index t 2 = 0 :=
  (by decide +kernel : ∀ t : Fin grid0.N, win0_2.index t 0 = t.val / 8 % 4 ∧ win0_2.index t 1 = t.val % 8 ∧ win0_2.index t 2 = 0)
theorem at3 : ∀ t : Fin cfg0.N, win0_3.index t 0 = t.val / 8 % 4 ∧ win0_3.index t 1 = t.val % 8 ∧ win0_3.index t 2 = 0 :=
  (by decide +kernel : ∀ t : Fin grid0.N, win0_3.index t 0 = t.val / 8 % 4 ∧ win0_3.index t 1 = t.val % 8 ∧ win0_3.index t 2 = 0)
theorem at4 : ∀ t : Fin cfg0.N, win0_4.index t 0 = 0 ∧ win0_4.index t 1 = t.val / 8 % 4 :=
  (by decide +kernel : ∀ t : Fin grid0.N, win0_4.index t 0 = 0 ∧ win0_4.index t 1 = t.val / 8 % 4)
theorem at5 : ∀ t : Fin cfg0.N, win0_5.index t 0 = t.val / 32 ∧ win0_5.index t 1 = t.val / 8 % 4 :=
  (by decide +kernel : ∀ t : Fin grid0.N, win0_5.index t 0 = t.val / 32 ∧ win0_5.index t 1 = t.val / 8 % 4)

theorem lt64 (t : Fin cfg0.N) : t.val < 64 := lt_of_lt_of_eq t.isLt (show cfg0.N = 64 from N_0)

/-- The flattened row, the output feature and the column that local coordinates name at point `t`. -/
def rowOf (t : Fin cfg0.N) (p : Fin 2048) : Fin 4096 := ⟨2048 * (t.val / 32) + p.val, by have := lt64 t; omega⟩
def featOf (t : Fin cfg0.N) (q : Fin 1024) : Fin 4096 := ⟨1024 * (t.val / 8 % 4) + q.val, by have := lt64 t; omega⟩
def colOf (t : Fin cfg0.N) (kk : Fin 512) : Fin 4096 := ⟨512 * (t.val % 8) + kk.val, by have := lt64 t; omega⟩

/-- The tiles at point `t`, at their literal types. -/
abbrev xblk (c : Dev nD) (t : Fin cfg0.N) : Vec Ideal S2048x512 .bf16 := iblk m c 0 t
abbrev pblk (c : Dev nD) (t : Fin cfg0.N) : Vec Ideal S1024x64x4 .i32 := iblk m c 1 t
abbrev sblk (c : Dev nD) (t : Fin cfg0.N) : Vec Ideal S1024x64x1 .f32 := iblk m c 2 t
abbrev oblk (c : Dev nD) (t : Fin cfg0.N) : Vec Ideal S1024x64x1 .f32 := iblk m c 3 t
abbrev bblk (c : Dev nD) (t : Fin cfg0.N) : Vec Ideal S1x1024 .f32 := iblk m c 4 t

theorem xblk_apply (c : Dev nD) (t : Fin cfg0.N) (p : Fin 2048) (kk : Fin 512) :
    xblk m c t (ix2 p kk) = Cert.Spec.xAt (argX m c) (rowOf t p) (colOf t kk) := by
  unfold xblk iblk
  rw [View.read_apply]
  refine Eq.trans (congrArg (V m c main_call0_v4 : S4096x4096.Idx → EReal) ?_) (acts_apply m c _ _)
  funext a
  apply Fin.ext
  match a with
  | ⟨0, _⟩ => show win0_0.index t 0 * 2048 + 1 * p.val = 2048 * (t.val / 32) + p.val; rw [(at0 t).1]; omega
  | ⟨1, _⟩ => show win0_0.index t 1 * 512 + 1 * kk.val = 512 * (t.val % 8) + kk.val; rw [(at0 t).2]; omega

/-- Group `cg` of the K-step's 64 groups, among the 512 groups of an output feature. -/
def grpOf (t : Fin cfg0.N) (cg : Fin 64) : Fin 512 := ⟨64 * (t.val % 8) + cg.val, by omega⟩

theorem pblk_apply (c : Dev nD) (t : Fin cfg0.N) (q : Fin 1024) (cg : Fin 64) (jj : Fin 4) :
    pblk m c t (ix3 q cg jj) = argP m c (ix2 ⟨(featOf t q).val * 512 + (grpOf t cg).val, by omega⟩ jj) := by
  unfold pblk iblk
  rw [View.read_apply]
  refine Eq.trans (congrArg (V m c main_call0_v0 : S4096x512x4.Idx → BitVec 32) ?_) (words_apply m c (featOf t q) (grpOf t cg) jj)
  funext a
  apply Fin.ext
  match a with
  | ⟨0, _⟩ => show win0_1.index t 0 * 1024 + 1 * q.val = 1024 * (t.val / 8 % 4) + q.val; rw [(at1 t).1]; omega
  | ⟨1, _⟩ => show win0_1.index t 1 * 64 + 1 * cg.val = 64 * (t.val % 8) + cg.val; rw [(at1 t).2.1]; omega
  | ⟨2, _⟩ => show win0_1.index t 2 * 4 + 1 * jj.val = jj.val; rw [(at1 t).2.2]; omega

theorem sblk_apply (c : Dev nD) (t : Fin cfg0.N) (q : Fin 1024) (cg : Fin 64) :
    sblk m c t (ix3 q cg ⟨0, by omega⟩) = argS m c (ix2 ⟨(featOf t q).val * 512 + (grpOf t cg).val, by omega⟩ ⟨0, by omega⟩) := by
  unfold sblk iblk
  rw [View.read_apply]
  refine Eq.trans (congrArg (V m c main_call0_v1 : S4096x512x1.Idx → EReal) ?_) (scales_apply m c (featOf t q) (grpOf t cg))
  funext a
  apply Fin.ext
  match a with
  | ⟨0, _⟩ => show win0_2.index t 0 * 1024 + 1 * q.val = 1024 * (t.val / 8 % 4) + q.val; rw [(at2 t).1]; omega
  | ⟨1, _⟩ => show win0_2.index t 1 * 64 + 1 * cg.val = 64 * (t.val % 8) + cg.val; rw [(at2 t).2.1]; omega
  | ⟨2, _⟩ => show win0_2.index t 2 * 1 + 1 * 0 = 0; rw [(at2 t).2.2]

theorem oblk_apply (c : Dev nD) (t : Fin cfg0.N) (q : Fin 1024) (cg : Fin 64) :
    oblk m c t (ix3 q cg ⟨0, by omega⟩) = argO m c (ix2 ⟨(featOf t q).val * 512 + (grpOf t cg).val, by omega⟩ ⟨0, by omega⟩) := by
  unfold oblk iblk
  rw [View.read_apply]
  refine Eq.trans (congrArg (V m c main_call0_v2 : S4096x512x1.Idx → EReal) ?_) (offsets_apply m c (featOf t q) (grpOf t cg))
  funext a
  apply Fin.ext
  match a with
  | ⟨0, _⟩ => show win0_3.index t 0 * 1024 + 1 * q.val = 1024 * (t.val / 8 % 4) + q.val; rw [(at3 t).1]; omega
  | ⟨1, _⟩ => show win0_3.index t 1 * 64 + 1 * cg.val = 64 * (t.val % 8) + cg.val; rw [(at3 t).2.1]; omega
  | ⟨2, _⟩ => show win0_3.index t 2 * 1 + 1 * 0 = 0; rw [(at3 t).2.2]

/-- The bias tile holds the bias of the column block's output features. -/
theorem bblk_apply (c : Dev nD) (t : Fin cfg0.N) (q : Fin 1024) :
    bblk m c t (ix2 ⟨0, by omega⟩ q) = argB m c (ix1 (featOf t q)) := by
  unfold bblk iblk
  rw [View.read_apply]
  refine Eq.trans (congrArg (V m c main_call0_v5 : S1x4096.Idx → EReal) ?_) (bias_apply m c (featOf t q))
  funext a
  apply Fin.ext
  match a with
  | ⟨0, _⟩ => show win0_4.index t 0 * 1 + 1 * 0 = 0; rw [(at4 t).1]
  | ⟨1, _⟩ => show win0_4.index t 1 * 1024 + 1 * q.val = 1024 * (t.val / 8 % 4) + q.val; rw [(at4 t).2]; omega

/-- Equal field, group and word numbers give equal dequantized weights. -/
theorem deq_congr (P : Cert.Spec.Codes) (S O : Cert.Spec.Groups) {h h' : ℕ} {g g' : Fin 2097152} {w w' : Fin 4}
    (eh : h = h') (eg : g.val = g'.val) (ew : w.val = w'.val) :
    Cert.Spec.deq h (P (ix2 g w)) (S (ix2 g ⟨0, by omega⟩)) (O (ix2 g ⟨0, by omega⟩))
      = Cert.Spec.deq h' (P (ix2 g' w')) (S (ix2 g' ⟨0, by omega⟩)) (O (ix2 g' ⟨0, by omega⟩)) := by
  subst eh
  obtain rfl := Fin.ext eg
  obtain rfl := Fin.ext ew
  rfl

/-- The dequantized weight tile at point `t` is the weight matrix at the column block's output features and the
    K-step's columns. -/
theorem tile_apply (c : Dev nD) (t : Fin cfg0.N) (q : Fin 1024) (kk : Fin 512) :
    Cert.KernelIdeal.Tile.wtile (pblk m c t) (sblk m c t) (oblk m c t) (ix2 q kk)
      = Cert.Spec.wAt (argP m c) (argS m c) (argO m c) (featOf t q) (colOf t kk) := by
  refine (Cert.KernelIdeal.Tile.wtile_apply _ _ _ q kk).trans ?_
  rw [pblk_apply, sblk_apply, oblk_apply]
  have hN := lt64 t
  exact deq_congr (argP m c) (argS m c) (argO m c)
    (by show kk.val % 2 = (512 * (t.val % 8) + kk.val) % 2; omega)
    (by show (1024 * (t.val / 8 % 4) + q.val) * 512 + (64 * (t.val % 8) + kk.val / 8) = (1024 * (t.val / 8 % 4) + q.val) * 512 + (512 * (t.val % 8) + kk.val) / 8; omega)
    (by show kk.val % 8 / 2 = (512 * (t.val % 8) + kk.val) % 8 / 2; omega)

/-- The K-step's partial product at row `p` and column `q` of the output tile: the block sum of the contraction. -/
theorem partial_apply (c : Dev nD) (t : Fin cfg0.N) (p : Fin 2048) (q : Fin 1024) :
    k0_pay5 (pblk m c t) (sblk m c t) (oblk m c t) (xblk m c t) (ix2 p q)
      = Cert.Spec.blockSum (argX m c) (argP m c) (argS m c) (argO m c) (rowOf t p) (featOf t q) ⟨t.val % 8, by omega⟩ := by
  rw [Cert.KernelIdeal.Tile.pay5_apply]
  unfold Cert.Spec.blockSum Cert.Spec.term
  refine Finset.sum_congr rfl fun kk _ => ?_
  rw [xblk_apply, tile_apply]
  rfl

end Cert.KernelIdeal.Blocks

end
-- ==== Proof.Accum.lean ====
/-
  The output tile along a run of eight K-steps.

  At the points of one row block and one column block (eight consecutive points, `t % 8 = 0 .. 7`) the output
  tile holds, entry by entry, the running sum from zero of the block sums of the contraction: after the step with
  `t % 8 = K` the first `K + 1` of them; the last step then adds the bias of the entry's output feature.
-/
import proofs.«410811_j30906584662420_3_alg».proof.Proof.Pieces
import proofs.«410811_j30906584662420_3_alg».proof.Proof.Blocks

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.HostIn Cert.KernelIdeal.Blocks

variable (m : (ℓ : Loc nD τ sig) → Buf (Elt Ideal) ℓ)

/-- One K-step at an entry: the accumulator's entry plus the partial product's. -/
theorem step_apply (acc : Vec Ideal S2048x1024 .f32) (x0 : Vec Ideal S2048x512 .bf16) (x1 : Vec Ideal S1024x64x4 .i32)
    (x2 x3 : Vec Ideal S1024x64x1 .f32) (p : Fin 2048) (q : Fin 1024) :
    Cert.KernelIdeal.Acc.step acc x0 x1 x2 x3 (ix2 p q) = acc (ix2 p q) + k0_pay5 x1 x2 x3 x0 (ix2 p q) := by
  unfold Cert.KernelIdeal.Acc.step k0_pay1 k0_pay4
  rw [addf_apply, shapeCast_self]

/-- The bias row added to every row of a tile, at an entry. -/
theorem addBias_apply (v : Vec Ideal S2048x1024 .f32) (b : Vec Ideal S1x1024 .f32) (p : Fin 2048) (q : Fin 1024) :
    k0_pay2 v b (ix2 p q) = v (ix2 p q) + b (ix2 ⟨0, by omega⟩ q) := by
  unfold k0_pay2
  rw [addf_apply, shapeCast_self, shapeCast_self,
    broadcastTo_apply _ Facts₀.broadcasts_S1x1024_S2048x1024 (ix2 p q) (ix2 ⟨0, by omega⟩ q) (fun a => match a with
      | ⟨0, _⟩ => by show 0 = if (1 : Nat) = 1 then 0 else p.val; rw [if_pos rfl]
      | ⟨1, _⟩ => by show q.val = if (1024 : Nat) = 1 then 0 else q.val; rw [if_neg (by decide)])]

/-- The eight block sums of the entry at local row `p` and local column `q` of the tile of point `t`. -/
abbrev sums (c : Dev nD) (t : Fin cfg0.N) (p : Fin 2048) (q : Fin 1024) : Fin 8 → EReal :=
  Cert.Spec.blockSum (argX m c) (argP m c) (argS m c) (argO m c) (rowOf t p) (featOf t q)

/-- The first K-step of a run leaves zero plus the first block sum. -/
theorem first_eq (c : Dev nD) (t : Fin cfg0.N) (h0 : t.val % 8 = 0) (h1 : ¬t.val % 8 = 7) (p : Fin 2048) (q : Fin 1024) :
    (outsAt0 m c t.val t.isLt : Vec Ideal S2048x1024 .f32) (ix2 p q) = 0 + sums m c t p q ⟨t.val % 8, by omega⟩ := by
  rw [outsAt0_A m c t h0 h1]
  refine (congrFun (Cert.KernelIdeal.Acc.out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
    ((hcond0_0 t).mpr h0) (fun h => h1 ((hcond0_1 t).mp h)) (iblk m c 0 t) (iblk m c 1 t) (iblk m c 2 t) (iblk m c 3 t) (iblk m c 4 t)) (ix2 p q)).trans ?_
  rw [step_apply]
  refine congrArg₂ (· + ·) ?_ (partial_apply m c t p q)
  exact Ideal.ofBits_zero_f32

/-- A middle K-step adds its block sum to what the step before left. -/
theorem next_eq (c : Dev nD) (t : Fin cfg0.N) (h0 : ¬t.val % 8 = 0) (h1 : ¬t.val % 8 = 7) (p : Fin 2048) (q : Fin 1024) :
    (outsAt0 m c t.val t.isLt : Vec Ideal S2048x1024 .f32) (ix2 p q)
      = (outsAt0 m c (t.val - 1) (Nat.lt_of_le_of_lt (Nat.sub_le _ _) t.isLt) : Vec Ideal S2048x1024 .f32) (ix2 p q)
        + sums m c t p q ⟨t.val % 8, by omega⟩ := by
  rw [outsAt0_B m c t h0 h1]
  refine (congrFun (Cert.KernelIdeal.Acc.out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
    (fun h => h0 ((hcond0_0 t).mp h)) (fun h => h1 ((hcond0_1 t).mp h)) (iblk m c 0 t) (iblk m c 1 t) (iblk m c 2 t) (iblk m c 3 t) (iblk m c 4 t)
    (outsAt0 m c (t.val - 1) (Nat.lt_of_le_of_lt (Nat.sub_le _ _) t.isLt))) (ix2 p q)).trans ?_
  rw [step_apply]
  exact congrArg₂ (· + ·) rfl (partial_apply m c t p q)

/-- The last K-step does the same and then adds the bias of the entry's output feature. -/
theorem last_eq (c : Dev nD) (t : Fin cfg0.N) (h0 : ¬t.val % 8 = 0) (h1 : t.val % 8 = 7) (p : Fin 2048) (q : Fin 1024) :
    (outsAt0 m c t.val t.isLt : Vec Ideal S2048x1024 .f32) (ix2 p q)
      = ((outsAt0 m c (t.val - 1) (Nat.lt_of_le_of_lt (Nat.sub_le _ _) t.isLt) : Vec Ideal S2048x1024 .f32) (ix2 p q)
        + sums m c t p q ⟨t.val % 8, by omega⟩) + argB m c (ix1 (featOf t q)) := by
  rw [outsAt0_C m c t h0 h1]
  refine (congrFun (Cert.KernelIdeal.Acc.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
    (fun h => h0 ((hcond0_0 t).mp h)) ((hcond0_1 t).mpr h1) (iblk m c 0 t) (iblk m c 1 t) (iblk m c 2 t) (iblk m c 3 t) (iblk m c 4 t)
    (outsAt0 m c (t.val - 1) (Nat.lt_of_le_of_lt (Nat.sub_le _ _) t.isLt))) (ix2 p q)).trans ?_
  rw [addBias_apply, step_apply]
  exact congrArg₂ (· + ·) (congrArg₂ (· + ·) rfl (partial_apply m c t p q)) (bblk_apply m c t q)

/-- Along a run, before its last step, the tile's entry is the running sum of the block sums so far:
    by induction on the point, the step before feeding the next. -/
theorem acc_eq (c : Dev nD) (p : Fin 2048) (q : Fin 1024) :
    ∀ (n : ℕ) (h : n < cfg0.N) (K : ℕ) (hK : K < 7) (e : n % 8 = K),
      (outsAt0 m c n h : Vec Ideal S2048x1024 .f32) (ix2 p q) = Cert.Spec.runSum (sums m c ⟨n, h⟩ p q) K (by omega)
  | 0, h, K, hK, e => by
    obtain rfl : K = 0 := by omega
    exact first_eq m c ⟨0, h⟩ rfl (by dsimp only; omega) p q
  | n + 1, h, K, hK, e => by
    have hN : n + 1 < 64 := lt_of_lt_of_eq h (show cfg0.N = 64 from N_0)
    by_cases h0 : (n + 1) % 8 = 0
    · obtain rfl : K = 0 := by omega
      rw [first_eq m c ⟨n + 1, h⟩ h0 (by dsimp only; omega) p q, Cert.Spec.runSum_zero]
      exact congrArg (fun k => 0 + sums m c ⟨n + 1, h⟩ p q k) (Fin.ext h0)
    · obtain ⟨K', rfl⟩ : ∃ K', K = K' + 1 := ⟨K - 1, by omega⟩
      have hn : n % 8 = K' := by omega
      have ih := acc_eq c p q n (Nat.lt_of_succ_lt h) K' (by omega) hn
      have er : rowOf ⟨n, Nat.lt_of_succ_lt h⟩ p = rowOf ⟨n + 1, h⟩ p :=
        Fin.ext (by show 2048 * (n / 32) + p.val = 2048 * ((n + 1) / 32) + p.val; omega)
      have ef : featOf ⟨n, Nat.lt_of_succ_lt h⟩ q = featOf ⟨n + 1, h⟩ q :=
        Fin.ext (by show 1024 * (n / 8 % 4) + q.val = 1024 * ((n + 1) / 8 % 4) + q.val; omega)
      unfold sums at ih
      rw [er, ef] at ih
      rw [next_eq m c ⟨n + 1, h⟩ h0 (by dsimp only; omega) p q, Cert.Spec.runSum_succ]
      exact congrArg₂ (· + ·) ih (congrArg (sums m c ⟨n + 1, h⟩ p q) (Fin.ext e))

/-- After the last step of a run the tile's entry is the result at the entry's row and output feature. -/
theorem done_eq (c : Dev nD) (t : Fin cfg0.N) (h7 : t.val % 8 = 7) (p : Fin 2048) (q : Fin 1024) :
    (outsAt0 m c t.val t.isLt : Vec Ideal S2048x1024 .f32) (ix2 p q)
      = Cert.Spec.out (argX m c) (argP m c) (argS m c) (argO m c) (argB m c) (rowOf t p) (featOf t q) := by
  have hN := lt64 t
  have ih := acc_eq m c p q (t.val - 1) (Nat.lt_of_le_of_lt (Nat.sub_le _ _) t.isLt) 6 (by decide) (by omega)
  have er : rowOf ⟨t.val - 1, Nat.lt_of_le_of_lt (Nat.sub_le _ _) t.isLt⟩ p = rowOf t p :=
    Fin.ext (by show 2048 * ((t.val - 1) / 32) + p.val = 2048 * (t.val / 32) + p.val; omega)
  have ef : featOf ⟨t.val - 1, Nat.lt_of_le_of_lt (Nat.sub_le _ _) t.isLt⟩ q = featOf t q :=
    Fin.ext (by show 1024 * ((t.val - 1) / 8 % 4) + q.val = 1024 * (t.val / 8 % 4) + q.val; omega)
  unfold sums at ih
  rw [er, ef] at ih
  rw [last_eq m c t (by omega) h7 p q, ih, ← Cert.Spec.runSum_blockSum]
  refine congrArg (· + argB m c (ix1 (featOf t q))) ?_
  show _ = Cert.Spec.runSum (sums m c t p q) (6 + 1) (by decide)
  rw [Cert.Spec.runSum_succ]
  exact congrArg (Cert.Spec.runSum (sums m c t p q) 6 (by decide) + sums m c t p q ·) (Fin.ext h7)

end Cert.KernelIdeal.Accum

end
-- ==== Proof.KernelValue.lean ====
/-
  The kernel's result as one function of the arguments.

  The output array of the call (4096 flattened rows by 4096 output features) is written back tile by tile, once per
  row block and column block, after the last K-step of the run; each tile holds the result at its rows and output
  features, the 2 x 4 tiles cover the array, and the host line after the call only regroups the 4096 rows as
  2 x 2048.
-/
import proofs.«410811_j30906584662420_3_alg».proof.Proof.Accum
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.HostIn Cert.KernelIdeal.Blocks Cert.KernelIdeal.Accum

variable (m : (ℓ : Loc nD τ sig) → Buf (Elt Ideal) ℓ) (ρ : Dev nD → PrngReg)

/-- The call's output array: the result at each flattened row and output feature. -/
abbrev outArr (c : Dev nD) : Buf (Elt Ideal) ((c : Thread nD τ).loc main_call0_v6) := fun j =>
  Cert.Spec.out (argX m c) (argP m c) (argS m c) (argO m c) (argB m c) ⟨(j 0).val, (j 0).isLt⟩ ⟨(j 1).val, (j 1).isLt⟩

/-- The tile's entry after the last step of its run, at any index of the tile. -/
theorem done_at (c : Dev nD) (t : Fin cfg0.N) (h7 : t.val % 8 = 7) (j : S2048x1024.Idx) :
    (outsAt0 m c t.val t.isLt : Vec Ideal S2048x1024 .f32) j
      = Cert.Spec.out (argX m c) (argP m c) (argS m c) (argO m c) (argB m c) (rowOf t (j 0)) (featOf t (j 1)) := by
  exact (congrArg (outsAt0 m c t.val t.isLt : Vec Ideal S2048x1024 .f32) (eq_ix2 j)).trans (done_eq m c t h7 (j 0) (j 1))

/-- What a write-back point writes is its tile of the output array. -/
theorem flushed_eq (c : Dev nD) (t : Fin cfg0.N) (hf : (cfg0.win 5).flush t = true) :
    (dats m 0 c).flushed 5 t = ((cfg0.win 5).blk t).view.read (Elt Ideal) (outArr m c) := by
  have h7 : t.val % 8 = 7 := (flush0_5 t).mp hf
  show (cfg0.win 5).cut (grid0.coords t) ((dats m 0 c).after 5 t) = _
  rw [after0_5]
  funext j
  show (outsAt0 m c t.val t.isLt : Vec Ideal S2048x1024 .f32) j = outArr m c (((cfg0.win 5).blk t).view.emb j)
  rw [done_at m c t h7 j]
  refine congrArg₂ (Cert.Spec.out (argX m c) (argP m c) (argS m c) (argO m c) (argB m c)) (Fin.ext ?_) (Fin.ext ?_)
  · show 2048 * (t.val / 32) + (j 0).val = win0_5.index t 0 * 2048 + 1 * (j 0).val
    rw [(at5 t).1]; omega
  · show 1024 * (t.val / 8 % 4) + (j 1).val = win0_5.index t 1 * 1024 + 1 * (j 1).val
    rw [(at5 t).2]; omega

/-- An index of the output array is in point `t`'s tile iff each coordinate is in the tile's range. -/
theorem mem_blk (t : Fin cfg0.N) (i : S4096x4096.Idx) :
    i ∈ ((cfg0.win 5).blk t).view.set ↔ ∀ a : Fin 2, win0_5.index t a * S2048x1024.size a ≤ (i a).val ∧ (i a).val < win0_5.index t a * S2048x1024.size a + S2048x1024.size a := by
  show i ∈ ((View.whole main_call0_v6).slice (win0_5.rect t)).set ↔ _
  rw [View.set_slice_whole, Rect.mem_set_unit]
  exact Iff.rfl

/-- Every index of the output array is in the tile of the last point of the run of its row block and column block. -/
theorem cover (i : S4096x4096.Idx) : ∃ t : Fin cfg0.N, (cfg0.win 5).flush t = true ∧ i ∈ ((cfg0.win 5).blk t).view.set := by
  have h0 : (i 0).val < 4096 := (i 0).isLt
  have h1 : (i 1).val < 4096 := (i 1).isLt
  have hN : cfg0.N = 64 := N_0
  obtain ⟨t, ht⟩ : ∃ t : Fin cfg0.N, t.val = 32 * ((i 0).val / 2048) + 8 * ((i 1).val / 1024) + 7 :=
    ⟨⟨32 * ((i 0).val / 2048) + 8 * ((i 1).val / 1024) + 7, by rw [hN]; omega⟩, rfl⟩
  refine ⟨t, (flush0_5 t).mpr (by omega), ?_⟩
  rw [mem_blk]
  intro a
  match a with
  | ⟨0, _⟩ =>
    show win0_5.index t 0 * 2048 ≤ (i 0).val ∧ (i 0).val < win0_5.index t 0 * 2048 + 2048
    rw [(at5 t).1]; omega
  | ⟨1, _⟩ =>
    show win0_5.index t 1 * 1024 ≤ (i 1).val ∧ (i 1).val < win0_5.index t 1 * 1024 + 1024
    rw [(at5 t).2]; omega

/-- So the output array ends holding the result. -/
theorem final (c : Dev nD) : (dats m 0 c).arrAt 5 cfg0.N = outArr m c :=
  (dats m 0 c).arrAt_eq_of_cover 5 (outArr m c) (flushed_eq m c) cover

/-- The host line after the call regroups the 4096 rows as 2 x 2048: the program's result. -/
theorem tail_eq (c : Dev nD) :
    Pipeline.afterTail₀ cfgs (dats m) 0 (V0 m) [hostOps1] c main_v0
      = shapeCast S2x2048x4096 (outArr m c) Facts₀.shapeCasts_S4096x4096_S2x2048x4096 := by
  unfold Pipeline.afterTail₀
  show StableHlo.after hostOps1 _ (Proc.devRef .tc main_v0) = _
  after_results
  have e : Pipeline.withArrays (cfgs 0).spec c (V0 m c) (fun w => (dats m 0 c).arrAt w (cfgs 0).N) (Proc.devRef .tc main_call0_v6)
      = outArr m c :=
    (Pipeline.withArrays_arr spec0 launch0.win.arr_inj c (V0 m c) (fun w => (dats m 0 c).arrAt w (cfgs 0).N) 5).trans (final m c)
  rw [e]
  rfl

/-- The output array with its 4096 rows regrouped as 2 x 2048 is the result. -/
theorem reshape_out (c : Dev nD) :
    shapeCast S2x2048x4096 (outArr m c) Facts₀.shapeCasts_S4096x4096_S2x2048x4096
      = Cert.Spec.result (argX m c) (argP m c) (argS m c) (argO m c) (argB m c) := by
  funext j
  have h0 : (j 0).val < 2 := (j 0).isLt
  have h1 : (j 1).val < 2048 := (j 1).isLt
  rw [shapeCast_apply _ Facts₀.shapeCasts_S4096x4096_S2x2048x4096 j
    (ix2 ⟨(j 0).val * 2048 + (j 1).val, by omega⟩ ⟨(j 2).val, (j 2).isLt⟩)
    (by rewrite [Shape.rowMajor_val_two, Shape.rowMajor_val_three]; rfl)]
  rfl

/-- The kernel's run: every execution ends with the result array at the result of the arguments and the arguments
    unchanged. -/
theorem run : θ_run defs (onTc (τ := τ) (main (F := Ideal))) ⟨m, fun _ => 0, ρ⟩ fun r => ∀ c : Dev nD,
      r.2.mem ((c : Thread nD τ).loc main_v0) = Cert.Spec.result (argX m c) (argP m c) (argS m c) (argO m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨(((h c).2 main_v0 (Pipeline.mem_restRefs_of main_v0 (by decide) (by decide))).trans (tail_eq m c)).trans (reshape_out m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.RefValue.lean ====
/-
  The reference's result is the specification's.

  The reference dequantizes all 2097152 groups at once: it widens the low and the high fields, interleaves them
  along a new last axis of extent two, flattens each group's four pairs to eight codes, scales and offsets them
  group-wise, regroups the codes as the 4096 x 4096 weight matrix, contracts the activations' last axis with the
  matrix's columns and adds the bias along the last axis. The shift the host applies to reach the high field is the
  vector unit's for an amount below the word's width.
-/
import proofs.«410811_j30906584662420_3_alg».proof.Proof.Gen.ReferenceIdeal.Read
import proofs.«410811_j30906584662420_3_alg».proof.Proof.Spec
import Idealize.ShloMosaic.Lib.KernelVsHost

noncomputable section

open Idealize.ShloMosaic Idealize.ShloMosaic.ValueIdx

namespace Cert.ReferenceIdeal.RefValue

open Cert.ReferenceIdeal Cert.ReferenceIdeal.Gen Cert.ReferenceIdeal.Read

/-- Code `p8` of group `g`, widened: field `p8 % 2` of the group's word `p8 / 2`. -/
theorem codes_apply (x1 : Cert.Spec.Codes) (g : Fin 2097152) (p8 : Fin 8) :
    val_main_v11 (F := Ideal) x1 (ix2 g p8)
      = FloatOps.sitofp (F := Ideal) .f32 (Cert.Spec.field (p8.val % 2) (x1 (ix2 g ⟨p8.val / 2, by omega⟩))) := by
  rw [val_main_v11_apply]
  unfold val_main_v10
  rcases Nat.mod_two_eq_zero_or_one p8.val with h | h
  · rw [concatenate_pair_apply_left (t := S2097152x4x2) (s₁ := S2097152x4x1) (s₂ := S2097152x4x1) (2 : Fin 3) _ _
        Facts₀.concatenates_S2097152x4x1_S2097152x4x1_S2097152x4x2_d2 _ rfl
        (show S2097152x4x1.Idx from ix3 g ⟨p8.val / 2, by omega⟩ ⟨0, by omega⟩)
        (fun b => match b with
          | ⟨0, _⟩ => by show g.val = (g.val * 8 + p8.val) / 8; omega
          | ⟨1, _⟩ => by show p8.val / 2 = (g.val * 8 + p8.val) / 2 % 4; omega
          | ⟨2, _⟩ => by show 0 = (g.val * 8 + p8.val) % 2; omega),
      val_main_v8_apply, val_main_v2_apply, val_main_v1_apply, val_main_v0_apply, val_main_c_apply, h]
    exact congrArg (fun w => FloatOps.sitofp (F := Ideal) .f32 (IntOp.andi w 15#32)) (congrArg x1 (funext fun a => Fin.ext (by
      match a with
      | ⟨0, _⟩ => rfl
      | ⟨1, _⟩ => rfl)))
  · rw [concatenate_pair_apply_right (t := S2097152x4x2) (s₁ := S2097152x4x1) (s₂ := S2097152x4x1) (2 : Fin 3) _ _
        Facts₀.concatenates_S2097152x4x1_S2097152x4x1_S2097152x4x2_d2 _ rfl rfl
        (show S2097152x4x1.Idx from ix3 g ⟨p8.val / 2, by omega⟩ ⟨0, by omega⟩)
        (fun b hb => match b, hb with
          | ⟨0, _⟩, _ => by show g.val = (g.val * 8 + p8.val) / 8; omega
          | ⟨1, _⟩, _ => by show p8.val / 2 = (g.val * 8 + p8.val) / 2 % 4; omega
          | ⟨2, _⟩, hb => absurd rfl hb)
        (by show 0 + 1 = (g.val * 8 + p8.val) % 2; omega),
      val_main_v9_apply, val_main_v7_apply, val_main_v6_apply, val_main_v4_apply, val_main_v3_apply, val_main_c_0_apply,
      val_main_v5_apply, val_main_c_1_apply, h, shrsi_unit .host .vector]
    exact congrArg (fun w => FloatOps.sitofp (F := Ideal) .f32 (IntOp.andi (IntOp.shrsi .vector w 4#32) 15#32)) (congrArg x1 (funext fun a => Fin.ext (by
      match a with
      | ⟨0, _⟩ => rfl
      | ⟨1, _⟩ => rfl)))

/-- Entry `(o, n)` of the reference's weight matrix is the specification's weight. -/
theorem weights_apply (x1 : Cert.Spec.Codes) (x2 x3 : Cert.Spec.Groups) (o n : Fin 4096) :
    val_main_v16 (F := Ideal) x1 x2 x3 (ix2 o n) = Cert.Spec.wAt x1 x2 x3 o n := by
  rw [val_main_v16_apply, val_main_v15_apply, val_main_v13_apply, val_main_v14_apply, val_main_v12_apply]
  have ei : idx_main_v16 (ix2 o n) = ix2 (Cert.Spec.grp o n) ⟨n.val % 8, by omega⟩ := funext fun a => Fin.ext (by
    match a with
    | ⟨0, _⟩ => show (o.val * 4096 + n.val) / 8 = o.val * 512 + n.val / 8; omega
    | ⟨1, _⟩ => show (o.val * 4096 + n.val) % 8 = n.val % 8; omega)
  rw [ei, codes_apply]
  have e2 : idx_main_v12 (ix2 (Cert.Spec.grp o n) ⟨n.val % 8, by omega⟩) = ix2 (Cert.Spec.grp o n) ⟨0, by omega⟩ := funext fun a => Fin.ext (by
    match a with
    | ⟨0, _⟩ => rfl
    | ⟨1, _⟩ => rfl)
  have e4 : idx_main_v14 (ix2 (Cert.Spec.grp o n) ⟨n.val % 8, by omega⟩) = ix2 (Cert.Spec.grp o n) ⟨0, by omega⟩ := funext fun a => Fin.ext (by
    match a with
    | ⟨0, _⟩ => rfl
    | ⟨1, _⟩ => rfl)
  rw [e2, e4]
  unfold Cert.Spec.wAt Cert.Spec.deq
  have em : n.val % 8 % 2 = n.val % 2 := by omega
  simp only [em]
  rfl

/-- The reference's result array is the specification's result. -/
theorem result_eq (x0 : Cert.Spec.Acts) (x1 : Cert.Spec.Codes) (x2 x3 : Cert.Spec.Groups) (x4 : Cert.Spec.Bias) :
    val_main_v20 (F := Ideal) x0 x1 x2 x3 x4 = Cert.Spec.result x0 x1 x2 x3 x4 := by
  funext i
  have h0 : (i 0).val < 2 := (i 0).isLt
  have h1 : (i 1).val < 2048 := (i 1).isLt
  rw [val_main_v20_apply, val_main_v17_apply, val_main_v19_apply, val_main_v18_apply]
  unfold Cert.Spec.result Cert.Spec.out
  refine congrArg₂ (· + ·) (Finset.sum_congr rfl fun k _ => ?_) (congrArg x4 (funext fun a => Fin.ext (by
    match a with
    | ⟨0, _⟩ => rfl)))
  unfold Cert.Spec.term Cert.Spec.xAt
  refine congrArg₂ (· * ·) (congrArg x0 (funext fun a => Fin.ext (by
    match a with
    | ⟨0, _⟩ => show (i 0).val = ((i 0).val * 2048 + (i 1).val) / 2048; omega
    | ⟨1, _⟩ => show (i 1).val = ((i 0).val * 2048 + (i 1).val) % 2048; omega
    | ⟨2, _⟩ => rfl))) ?_
  refine Eq.trans (congrArg (val_main_v16 (F := Ideal) x1 x2 x3) (funext fun a => Fin.ext (by
    match a with
    | ⟨0, _⟩ => rfl
    | ⟨1, _⟩ => rfl))) (weights_apply x1 x2 x3 ⟨(i 2).val, (i 2).isLt⟩ k)

end Cert.ReferenceIdeal.RefValue

end
-- ==== Proof.lean ====
/-
  A linear layer with 4-bit quantized weights: `y = x · Wᵀ + bias` for activations `x` of shape (2, 2048, 4096), a
  weight matrix `W` of 4096 x 4096 stored as 4-bit codes (two to a packed word, eight codes to a group with its own
  scale and offset, `W = code · scale + offset`) and a bias of 4096 entries.

  The kernel flattens the activations to 4096 rows and walks a grid of 2 row blocks x 4 column blocks x 8 K-steps;
  at each point it dequantizes a 1024 x 512 tile of `W` from its packed words, multiplies the 2048 x 512 activation
  tile by it and accumulates into the 2048 x 1024 output tile, which is cleared at the first K-step and gets the
  bias added at the last. The reference dequantizes the whole of `W` and contracts once.

  Over the extended reals both are, entry by entry, `(sum over the 4096 columns of x · W) + bias` with the same
  products (the casts to a narrower float format change nothing there): the kernel's value is the left-to-right
  running sum, from zero, of the eight blocks of 512 products, which is the whole sum because addition of extended
  reals is associative and commutative — no finiteness of the inputs is used. The three frames are the generated
  frame runs; the ideal pass rewrote nothing, so there is nothing to preserve.
-/
import proofs.«410811_j30906584662420_3_alg».proof.Defs
import proofs.«410811_j30906584662420_3_alg».proof.Proof.Gen.Kernel
import proofs.«410811_j30906584662420_3_alg».proof.Proof.Gen.Kernel.Frame
import proofs.«410811_j30906584662420_3_alg».proof.Proof.Gen.KernelIdeal
import proofs.«410811_j30906584662420_3_alg».proof.Proof.Gen.KernelIdeal.Frame
import proofs.«410811_j30906584662420_3_alg».proof.Proof.Gen.ReferenceIdeal
import proofs.«410811_j30906584662420_3_alg».proof.Proof.Gen.Pre_finite_inputs
import proofs.«410811_j30906584662420_3_alg».proof.Proof.Gen.ReferenceIdeal.Run
import proofs.«410811_j30906584662420_3_alg».proof.Proof.Gen.ReferenceIdeal.Read
import proofs.«410811_j30906584662420_3_alg».proof.Proof.KernelValue
import proofs.«410811_j30906584662420_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at the specification's
    result of those arguments. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
